-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : IVec S100000 32) (main_arg3 : FVec F S128x32 .f32) (main_arg4 : FVec F S32 .f32) (main_arg5 : FVec F S64x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg6 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x32 : Shape := ⟨2, ![100000, 32]⟩
abbrev S5000x128 : Shape := ⟨2, ![5000, 128]⟩
abbrev S5000x32 : Shape := ⟨2, ![5000, 32]⟩
abbrev S_ : Shape := ⟨0, ![]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S5000x1 : Shape := ⟨2, ![5000, 1]⟩
abbrev S256x32 : Shape := ⟨2, ![256, 32]⟩
abbrev S256x1 : Shape := ⟨2, ![256, 1]⟩
abbrev S2000x32 : Shape := ⟨2, ![2000, 32]⟩
abbrev S2000x1 : Shape := ⟨2, ![2000, 1]⟩
abbrev S2000x256 : Shape := ⟨2, ![2000, 256]⟩
abbrev S256x64 : Shape := ⟨2, ![256, 64]⟩
abbrev S1x1 : Shape := ⟨2, ![1, 1]⟩

abbrev nBuf : Space → Nat
  | .hbm => 74
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S64x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000x32, .f32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x32, .f32⟩
  | .hbm, ⟨50, _⟩ => ⟨S3200000x1, .f32⟩
  | .hbm, ⟨51, _⟩ => ⟨S3200000x32, .f32⟩
  | .hbm, ⟨52, _⟩ => ⟨S3200000x32, .f32⟩
  | .hbm, ⟨53, _⟩ => ⟨S_, .f32⟩
  | .hbm, ⟨54, _⟩ => ⟨S100000x32, .f32⟩
  | .hbm, ⟨55, _⟩ => ⟨S3200000x1, .i32⟩
  | .hbm, ⟨56, _⟩ => ⟨S100000x32, .f32⟩
  | .hbm, ⟨57, _⟩ => ⟨S100000, .f32⟩
  | .hbm, ⟨58, _⟩ => ⟨S100000x1, .f32⟩
  | .hbm, ⟨59, _⟩ => ⟨S1x32, .f32⟩
  | .hbm, ⟨60, _⟩ => ⟨S100000x32, .f32⟩
  | .hbm, ⟨61, _⟩ => ⟨S100000x1, .i32⟩
  | .hbm, ⟨62, _⟩ => ⟨S256x32, .f32⟩
  | .hbm, ⟨63, _⟩ => ⟨S256x1, .f32⟩
  | .hbm, ⟨64, _⟩ => ⟨S_, .f32⟩
  | .hbm, ⟨65, _⟩ => ⟨S256x1, .f32⟩
  | .hbm, ⟨66, _⟩ => ⟨S256x1, .f32⟩
  | .hbm, ⟨67, _⟩ => ⟨S256x32, .f32⟩
  | .hbm, ⟨68, _⟩ => ⟨S256x32, .f32⟩
  | .hbm, ⟨69, _⟩ => ⟨S256x64, .f32⟩
  | .hbm, ⟨70, _⟩ => ⟨S256x1, .f32⟩
  | .hbm, ⟨71, _⟩ => ⟨S1x1, .f32⟩
  | .hbm, ⟨72, _⟩ => ⟨S256x1, .f32⟩
  | .hbm, ⟨73, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S2000x32, .f32⟩
  | .local _ .vmem, ⟨15, _⟩ => ⟨S2000x32, .f32⟩
  | .local _ .vmem, ⟨16, _⟩ => ⟨S2000x1, .i32⟩
  | .local _ .vmem, ⟨17, _⟩ => ⟨S2000x1, .i32⟩
  | .local _ .vmem, ⟨18, _⟩ => ⟨S256x32, .f32⟩
  | .local _ .vmem, ⟨19, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45_0 : Ref sig .tc := ⟨.hbm, 62, rfl⟩
abbrev main_v45_1 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S100000_S100000x1 : S100000.ShapeCasts S100000x1
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S256x32_S256x32_0_0 : ∀ a, (![0, 0] : Fin 2 → Nat) a + S256x32.size a ≤ S256x32.size a
  h_S256x32 : 0 < S256x32.numel
  inb_S256x1_S256x1_0_0 : ∀ a, (![0, 0] : Fin 2 → Nat) a + S256x1.size a ≤ S256x1.size a
  h_S256x1 : 0 < S256x1.numel
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  shapeCasts_S256x32_S256x32 : S256x32.ShapeCasts S256x32
  shapeCasts_S256x1_S256x1 : S256x1.ShapeCasts S256x1
  bcast_S_S256x1 : S_.BroadcastsInDim S256x1 (![] : Fin 0 → Fin S256x1.rank)
  bcast_S256x1_S256x32_0_1 : S256x1.BroadcastsInDim S256x32 (![0, 1] : Fin 2 → Fin S256x32.rank)
  concatenates_S256x32_S256x32_S256x64_d1 : Shape.Concatenates [S256x32, S256x32] S256x64 1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S5000x128_S128x32_S5000x32_1_0_0_1_n_n_wf : DotDims.WF S5000x128 S128x32 S5000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x256_S2000x32_S256x32_0_0_1_1_n_n_wf : DotDims.WF S2000x256 S2000x32 S256x32 [0] [0] [1] [1] [] []
  dot_S2000x256_S2000x1_S256x1_0_0_1_1_n_n_wf : DotDims.WF S2000x256 S2000x1 S256x1 [0] [0] [1] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .i32 = 32 ∨ (Rect.block (s := S100000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x32.size a ≤ S256x32.size a
  hwx2_2 : ∀ i : grid2.Coords, EltTy.bits .f32 = 32 ∨ (Rect.block (s := S256x32) S256x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S256x1.size a
  hwx2_3 : ∀ i : grid2.Coords, EltTy.bits .f32 = 32 ∨ (Rect.block (s := S256x1) S256x1.size (cc2_transform_3 i) (hinb2_3 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x256_S2000x32_S256x32_0_0_1_1_n_n : DotDims S2000x256 S2000x32 S256x32 where
  lhsContracting := [0]
  rhsContracting := [0]
  lhsNonContracting := [1]
  rhsNonContracting := [1]
  lhsBatch := []
  rhsBatch := []
  wf := dot_S2000x256_S2000x32_S256x32_0_0_1_1_n_n_wf
def dot_S2000x256_S2000x1_S256x1_0_0_1_1_n_n : DotDims S2000x256 S2000x1 S256x1 where
  lhsContracting := [0]
  rhsContracting := [0]
  lhsNonContracting := [1]
  rhsNonContracting := [1]
  lhsBatch := []
  rhsBatch := []
  wf := dot_S2000x256_S2000x1_S256x1_0_0_1_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45_0) S256x32.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45_1) S256x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x32 : Shape := ⟨2, ![128, 32]⟩
abbrev S32 : Shape := ⟨1, ![32]⟩
abbrev S64x1 : Shape := ⟨2, ![64, 1]⟩
abbrev S1 : Shape := ⟨1, ![1]⟩
abbrev S100000x32 : Shape := ⟨2, ![100000, 32]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S256x32 : Shape := ⟨2, ![256, 32]⟩
abbrev S256 : Shape := ⟨1, ![256]⟩
abbrev S256x1 : Shape := ⟨2, ![256, 1]⟩
abbrev S256x64 : Shape := ⟨2, ![256, 64]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S64x1, .f32⟩
  | .hbm, ⟨6, _⟩ => ⟨S1, .f32⟩
  | .hbm, ⟨7, _⟩ => ⟨S100000x32, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x32, .f32⟩
  | .hbm, ⟨50, _⟩ => ⟨S3200000x1, .f32⟩
  | .hbm, ⟨51, _⟩ => ⟨S3200000x32, .f32⟩
  | .hbm, ⟨52, _⟩ => ⟨S3200000x32, .f32⟩
  | .hbm, ⟨53, _⟩ => ⟨S_, .f32⟩
  | .hbm, ⟨54, _⟩ => ⟨S100000x32, .f32⟩
  | .hbm, ⟨55, _⟩ => ⟨S3200000x1, .i32⟩
  | .hbm, ⟨56, _⟩ => ⟨S100000x32, .f32⟩
  | .hbm, ⟨57, _⟩ => ⟨S100000, .f32⟩
  | .hbm, ⟨58, _⟩ => ⟨S100000x1, .f32⟩
  | .hbm, ⟨59, _⟩ => ⟨S100000x32, .f32⟩
  | .hbm, ⟨60, _⟩ => ⟨S100000x32, .f32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S256x32, .f32⟩
  | .hbm, ⟨68, _⟩ => ⟨S100000x1, .i32⟩
  | .hbm, ⟨69, _⟩ => ⟨S256x32, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S256, .f32⟩
  | .hbm, ⟨74, _⟩ => ⟨S100000x1, .i32⟩
  | .hbm, ⟨75, _⟩ => ⟨S256, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S256x1, .f32⟩
  | .hbm, ⟨80, _⟩ => ⟨S256x32, .f32⟩
  | .hbm, ⟨81, _⟩ => ⟨S256x32, .f32⟩
  | .hbm, ⟨82, _⟩ => ⟨S256x64, .f32⟩
  | .hbm, ⟨83, _⟩ => ⟨S256x1, .f32⟩
  | .hbm, ⟨84, _⟩ => ⟨S1x1, .f32⟩
  | .hbm, ⟨85, _⟩ => ⟨S256x1, .f32⟩
  | .hbm, ⟨86, _⟩ => ⟨S256x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S256x32 : S_.BroadcastsInDim S256x32 (![] : Fin 0 → Fin S256x32.rank)
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  concatenates_S256x32_S256x32_S256x64_d1 : Shape.Concatenates [S256x32, S256x32] S256x64 1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S100000x128_S128x32_S100000x32_1_0_0_1_n_n_wf : DotDims.WF S100000x128 S128x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S256x32_S100000x1_S100000x32_1_0_0_1_wf : ScatterDims.WF S256x32 S100000x1 S100000x32 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.Xw.lean ====
/- The first launch: the row blocks of x times W1, laid side by side, are the one product x · W1. -/
import proofs.«428264_j44092134260958_1_alg».proof.Proof.Gen.KernelIdeal.Frame
import proofs.«428264_j44092134260958_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-! ## The matrix unit's operand indices, axis by axis -/

private theorem lhs_blk_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
private theorem lhs_blk_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
private theorem rhs_blk_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
private theorem rhs_blk_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- One row block's product at an entry: row p of the block of x against column q of W. -/
private theorem blockProduct_apply (x0 : Vec Ideal S5000x128 .f32) (x1 : Vec Ideal S128x32 .f32) (p : Fin 5000) (q : Fin 32) :
    k0_pay1 (F := Ideal) x0 x1 (ValueIdx.ix2 p q)
      = ∑ k : Fin 128, x0 (ValueIdx.ix2 p k) * x1 (ValueIdx.ix2 k q) := by
  unfold k0_pay1
  show FloatOps.matmul dot_S5000x128_S128x32_S5000x32_1_0_0_1_n_n none (truncf .bf16 x0 bitsLt_bf16_f32)
      (truncf .bf16 x1 bitsLt_bf16_f32) (constant (F := Ideal) S5000x32 .f32 0x00000000#32) (ValueIdx.ix2 p q) = _
  rw [Ideal.matmul_constant_zero_apply, ← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx (ValueIdx.ix2 p q) ((ValueIdx.contrEquiv1 dot_S5000x128_S128x32_S5000x32_1_0_0_1_n_n 128 rfl rfl).symm k) = ValueIdx.ix2 p k := funext fun a => Fin.ext (by
    match a with
    | ⟨0, _⟩ => exact lhs_blk_0 _ _
    | ⟨1, _⟩ => exact (lhs_blk_1 _ _).trans hk)
  have er : dot_S5000x128_S128x32_S5000x32_1_0_0_1_n_n.rhsIdx (ValueIdx.ix2 p q) ((ValueIdx.contrEquiv1 dot_S5000x128_S128x32_S5000x32_1_0_0_1_n_n 128 rfl rfl).symm k) = ValueIdx.ix2 k q := funext fun a => Fin.ext (by
    match a with
    | ⟨0, _⟩ => exact (rhs_blk_0 _ _).trans hk
    | ⟨1, _⟩ => exact rhs_blk_1 _ _)
  rw [el, er]
  rfl

/-! ## One entry of a row block's product is the reference's entry at the block's place in the array -/

/-- The product of a row block of x with W, at an entry, is the whole product x · W at any array index whose row of x and
    column of W the block's operands hold. -/
private theorem blockProduct_eq_product (x0 : Vec Ideal S5000x128 .f32) (x1 : Vec Ideal S128x32 .f32)
    (A : (⟨S100000x128, .f32⟩ : BufTy).Contents (Elt Ideal)) (W : (⟨S128x32, .f32⟩ : BufTy).Contents (Elt Ideal))
    (p : Fin 5000) (q : Fin 32) (i : S100000x32.Idx)
    (hx : ∀ k : Fin 128, x0 (ValueIdx.ix2 p k) = A (Cert.ReferenceIdeal.Read.lidx_main_v0 i k))
    (hw : ∀ k : Fin 128, x1 (ValueIdx.ix2 k q) = W (Cert.ReferenceIdeal.Read.ridx_main_v0 i k)) :
    k0_pay1 (F := Ideal) x0 x1 (ValueIdx.ix2 p q) = Cert.ReferenceIdeal.Read.val_main_v0 (F := Ideal) A W i := by
  rw [blockProduct_apply, Cert.ReferenceIdeal.Read.val_main_v0_apply]
  exact Finset.sum_congr rfl fun k _ => by rw [hx k, hw k]

/-! ## Where each window's block sits at a point -/

private theorem zeroOffsets : (![0, 0] : Fin 2 → Nat) = fun _ => 0 := funext fun a => by fin_cases a <;> rfl

/-- Point t takes row block t of x, the one block of W, and row block t of the result. -/
private theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of x · W. -/
private theorem flushed_eq_product (c : Dev nD) (t : Fin cfg0.N) :
    (dat0 (F := Ideal) V c).flushed 2 t
      = ((cfg0.win 2).blk t).view.read (Elt Ideal) (Cert.ReferenceIdeal.Read.val_main_v0 (F := Ideal) (V c main_arg0) (V c main_arg3)) := by
  show (cfg0.win 2).cut (grid0.coords t) ((dat0 (F := Ideal) V c).after 2 t) = _
  rw [after0_2]
  unfold out0_2
  rw [View.canon_unit_zero zeroOffsets]
  simp only [View.ld_unit_zero (S := S5000x128) zeroOffsets, View.ld_unit_zero (S := S128x32) zeroOffsets]
  obtain ⟨e00, e01, e10, e11, e20, e21⟩ := blockIndex t
  funext j
  show k0_pay1 (F := Ideal) (iblk0 V c 0 t) (iblk0 V c 1 t) j
    = Cert.ReferenceIdeal.Read.val_main_v0 (F := Ideal) (V c main_arg0) (V c main_arg3) (((cfg0.win 2).blk t).view.emb j)
  obtain ⟨p, q, rfl⟩ : ∃ (p : Fin 5000) (q : Fin 32), j = ValueIdx.ix2 p q := ⟨j 0, j 1, ValueIdx.eq_ix2 j⟩
  refine blockProduct_eq_product _ _ _ _ p q _ (fun k => ?_) (fun k => ?_)
  · show V c main_arg0 (((cfg0.win 0).blk t).view.emb (ValueIdx.ix2 p k)) = V c main_arg0 _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_arg3 (((cfg0.win 1).blk t).view.emb (ValueIdx.ix2 k q)) = V c main_arg3 _
    refine congrArg _ (funext fun a => Fin.ext ?_)
    match a with
    | ⟨0, _⟩ => show win0_1.index t (0 : Fin 2) * 128 + 1 * k.val = k.val; omega
    | ⟨1, _⟩ => show win0_1.index t (1 : Fin 2) * 32 + 1 * q.val = win0_2.index t (1 : Fin 2) * 32 + 1 * q.val; omega

/-- An index of the result is in point t's block iff each coordinate is in the block's range on its axis. -/
private theorem mem_rowBlock (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v4).slice (win0_2.rect t)).set ↔ _
  rw [View.set_slice_whole, Rect.mem_set_unit]
  exact Iff.rfl

/-- Row r of the result lies in the block of point r / 5000: the twenty row blocks tile the array. -/
private theorem rowBlocks_cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨-, -, -, -, e20, e21⟩ := blockIndex t
  have ht : t.val = (i 0).val / 5000 := rfl
  refine ⟨t, flush0_2 t, ?_⟩
  rw [mem_rowBlock]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

theorem xw_value (c : Dev nD) :
    (dat0 (F := Ideal) V c).arrAt 2 cfg0.N
      = Cert.ReferenceIdeal.Read.val_main_v0 (F := Ideal) (V c main_arg0) (V c main_arg3) :=
  (dat0 (F := Ideal) V c).arrAt_eq_of_cover 2 _ (fun t _ => flushed_eq_product V c t) rowBlocks_cover

end Cert.KernelIdeal.Val

end
-- ==== Proof.StagesA.lean ====
/- The kernel program up to its first launch's exit: the launch arguments pass untouched through the stretches and
   regions that do not write them, the two rows of the edge list are the reference's own stages, and the first launch
   leaves the reference's product x · W1. -/
import proofs.«428264_j44092134260958_1_alg».proof.Proof.Gen.KernelIdeal.Frame
import proofs.«428264_j44092134260958_1_alg».proof.Proof.Gen.ReferenceIdeal.Read
import Idealize.ShloMosaic.Lib.StableHlo.Run
import proofs.«428264_j44092134260958_1_alg».proof.Proof.Xw
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

open Idealize.ShloMosaic.StableHlo

variable (m : (ℓ : Loc nD τ sig) → Buf (Elt Ideal) ℓ) (ρ : Dev nD → PrngReg)

/-! ## The launch arguments pass through the stretches and regions that do not write them -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

/-- The source row of the edge list, as the first stretch leaves it: the reference's stage. -/
theorem W1_v1 (c : Dev nD) : W1 m ρ c (Proc.devRef .tc main_v1) = Cert.ReferenceIdeal.Read.val_main_v2 (F := Ideal) (m ((c : Thread nD τ).loc main_arg1)) := by
  show StableHlo.after hostOps0 (W0 m ρ c) (Proc.devRef .tc main_v1) = _
  after_results_simp <;> rfl
/-- The destination row of the edge list. -/
theorem W1_v3 (c : Dev nD) : W1 m ρ c (Proc.devRef .tc main_v3) = Cert.ReferenceIdeal.Read.val_main_v4 (F := Ideal) (m ((c : Thread nD τ).loc main_arg1)) := by
  show StableHlo.after hostOps0 (W0 m ρ c) (Proc.devRef .tc main_v3) = _
  after_results_simp <;> rfl

theorem W2_arg2 (c : Dev nD) : W2 m ρ c (Proc.devRef .tc main_arg2) = m ((c : Thread nD τ).loc main_arg2) :=
  (W2_of_ne m ρ c main_arg2 (by decide)).trans (W1_arg2 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_v1 (c : Dev nD) : W2 m ρ c (Proc.devRef .tc main_v1) = Cert.ReferenceIdeal.Read.val_main_v2 (F := Ideal) (m ((c : Thread nD τ).loc main_arg1)) :=
  (W2_of_ne m ρ c main_v1 (by decide)).trans (W1_v1 m ρ c)
theorem W2_v3 (c : Dev nD) : W2 m ρ c (Proc.devRef .tc main_v3) = Cert.ReferenceIdeal.Read.val_main_v4 (F := Ideal) (m ((c : Thread nD τ).loc main_arg1)) :=
  (W2_of_ne m ρ c main_v3 (by decide)).trans (W1_v3 m ρ c)

/-- After the first launch the product array is the reference's x · W1. -/
theorem W2_v4 (c : Dev nD) : W2 m ρ c (Proc.devRef .tc main_v4)
    = Cert.ReferenceIdeal.Read.val_main_v0 (F := Ideal) (m ((c : Thread nD τ).loc main_arg0)) (m ((c : Thread nD τ).loc main_arg3)) := by
  refine (W2_arr m ρ c 2).trans ?_
  rw [xw_value (V1 m ρ) c]
  show Cert.ReferenceIdeal.Read.val_main_v0 (F := Ideal) (W1 m ρ c (Proc.devRef .tc main_arg0)) (W1 m ρ c (Proc.devRef .tc main_arg3)) = _
  rw [W1_arg0, W1_arg3]

end Cert.KernelIdeal.Val

end
-- ==== Proof.Combine.lean ====
/- The second launch: block by block, tanh of (agg + xw · dinv² + b1), is that one function of the whole arrays. -/
import proofs.«428264_j44092134260958_1_alg».proof.Proof.Gen.KernelIdeal.Frame
import proofs.«428264_j44092134260958_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

/-- One entry of the combined features: tanh of (agg + xw · d2 + b), the column d2 read at the entry's row and the row b
    at the entry's column. -/
def combineAt (agg xw : FVec Ideal S100000x32 .f32) (d2 : FVec Ideal S100000x1 .f32) (b : FVec Ideal S1x32 .f32)
    (i : S100000x32.Idx) : Ideal .f32 :=
  FloatOps.tanh (FloatOps.addf (FloatOps.addf (agg i)
    (FloatOps.mulf (xw i) (d2 (Cert.ReferenceIdeal.Read.idx_main_v42 i))))
    (b (Cert.ReferenceIdeal.Read.idx_main_v46 i)))

open Idealize.ShloMosaic.ValueIdx

/-- A column [a, 1] broadcast along b lanes reads, at (p, c), the column at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at (p, q): tanh of (x0 + x1 · x2's row entry + x3's lane entry). -/
private theorem payload_apply (x0 x1 : Vec Ideal S5000x32 .f32) (x2 : Vec Ideal S5000x1 .f32) (x3 : Vec Ideal S1x32 .f32)
    (p : Fin 5000) (q : Fin 32) :
    k1_pay1 (F := Ideal) x0 x1 x2 x3 (ix2 p q)
      = FloatOps.tanh (FloatOps.addf (FloatOps.addf (x0 (ix2 p q)) (FloatOps.mulf (x1 (ix2 p q)) (x2 (ix2 p (0 : Fin 1)))))
          (x3 (ix2 (0 : Fin 1) q))) := by
  unfold k1_pay1
  simp only [shapeCast_self]
  have e2 : broadcastTo S5000x32 x2 broadcasts_S5000x1_S5000x32 (ix2 p q) = x2 (ix2 p (0 : Fin 1)) :=
    broadcastTo_a1_ab_apply x2 broadcasts_S5000x1_S5000x32 p q
  have e3 : broadcastTo S5000x32 x3 broadcasts_S1x32_S5000x32 (ix2 p q) = x3 (ix2 (0 : Fin 1) q) :=
    broadcastTo_1b_ab_apply x3 broadcasts_S1x32_S5000x32 p q
  show FloatOps.tanh (F := Ideal) (φ := .f32) (FloatOps.addf (FloatOps.addf (x0 (ix2 p q)) (FloatOps.mulf (x1 (ix2 p q))
      (broadcastTo S5000x32 x2 broadcasts_S5000x1_S5000x32 (ix2 p q))))
      (broadcastTo S5000x32 x3 broadcasts_S1x32_S5000x32 (ix2 p q))) = _
  rw [e2, e3]

/-- The same at any index of the block, its coordinates named. -/
private theorem payload_at (x0 x1 : Vec Ideal S5000x32 .f32) (x2 : Vec Ideal S5000x1 .f32) (x3 : Vec Ideal S1x32 .f32)
    (j : S5000x32.Idx) :
    k1_pay1 (F := Ideal) x0 x1 x2 x3 j
      = FloatOps.tanh (FloatOps.addf (FloatOps.addf (x0 j) (FloatOps.mulf (x1 j)
          (x2 (ix2 (⟨(j 0).val, idx2_lt0 j⟩ : Fin 5000) (0 : Fin 1)))))
          (x3 (ix2 (0 : Fin 1) (⟨(j 1).val, idx2_lt1 j⟩ : Fin 32)))) := by
  obtain ⟨p, q, rfl⟩ : ∃ (p : Fin 5000) (q : Fin 32), j = ix2 p q := ⟨j 0, j 1, eq_ix2 j⟩
  exact payload_apply x0 x1 x2 x3 p q

/-- The whole-shape rectangle's offsets are zero on both axes. -/
private theorem zero_offsets : (![0, 0] : Fin 2 → Nat) = fun _ => 0 := funext fun a => by fin_cases a <;> rfl

/-- The windows' block indices at point t: the row-blocked windows sit at block (t, 0), the bias row at block (0, 0). -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point t writes back is row block t of the combined features of the arrays as the region finds them. -/
private theorem written_block (c : Dev nD) (t : Fin cfg1.N) :
    (dat1 (F := Ideal) V c).flushed 4 t
      = ((cfg1.win 4).blk t).view.read (Elt Ideal)
          (fun i => combineAt (V c main_v39) (V c main_v4) (V c main_v41) (V c main_v42) i) := by
  show (cfg1.win 4).cut (grid1.coords t) ((dat1 (F := Ideal) V c).after 4 t) = _
  rw [after1_4]
  unfold out1_4
  rw [View.canon_unit_zero zero_offsets]
  simp only [View.ld_unit_zero (S := S5000x32) zero_offsets, View.ld_unit_zero (S := S5000x1) zero_offsets,
    View.ld_unit_zero (S := S1x32) zero_offsets]
  obtain ⟨a0, a1, b0, b1, c0, c1, d0, d1, o0, o1⟩ := block_indices t
  refine funext fun (j : S5000x32.Idx) => ?_
  refine (payload_at (iblk1 V c 0 t) (iblk1 V c 1 t) (iblk1 V c 2 t) (iblk1 V c 3 t) j).trans ?_
  have hp : (j 0).val < 5000 := idx2_lt0 j
  have hq : (j 1).val < 32 := idx2_lt1 j
  show FloatOps.tanh (F := Ideal) (φ := .f32) (FloatOps.addf (FloatOps.addf (V c main_v39 (((cfg1.win 0).blk t).view.emb j))
      (FloatOps.mulf (V c main_v4 (((cfg1.win 1).blk t).view.emb j))
        (V c main_v41 (((cfg1.win 2).blk t).view.emb (ix2 (⟨(j 0).val, hp⟩ : Fin 5000) (0 : Fin 1))))))
      (V c main_v42 (((cfg1.win 3).blk t).view.emb (ix2 (0 : Fin 1) (⟨(j 1).val, hq⟩ : Fin 32)))))
    = FloatOps.tanh (F := Ideal) (φ := .f32) (FloatOps.addf (FloatOps.addf (V c main_v39 (((cfg1.win 4).blk t).view.emb j))
      (FloatOps.mulf (V c main_v4 (((cfg1.win 4).blk t).view.emb j))
        (V c main_v41 (Cert.ReferenceIdeal.Read.idx_main_v42 (((cfg1.win 4).blk t).view.emb j)))))
      (V c main_v42 (Cert.ReferenceIdeal.Read.idx_main_v46 (((cfg1.win 4).blk t).view.emb j))))
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 32 + 1 * (j 1).val = win1_4.index t (1 : Fin 2) * 32 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 32 + 1 * (j 1).val = win1_4.index t (1 : Fin 2) * 32 + 1 * (j 1).val; omega
  have h2 : ((cfg1.win 2).blk t).view.emb (ix2 (⟨(j 0).val, hp⟩ : Fin 5000) (0 : Fin 1))
      = Cert.ReferenceIdeal.Read.idx_main_v42 (((cfg1.win 4).blk t).view.emb j) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (ix2 (0 : Fin 1) (⟨(j 1).val, hq⟩ : Fin 32))
      = Cert.ReferenceIdeal.Read.idx_main_v46 (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 32 + 1 * (j 1).val = win1_4.index t (1 : Fin 2) * 32 + 1 * (j 1).val; omega
  rw [h0, h1, h2, h3]

/-- An index of the array is in point t's block iff each coordinate is in the block's range on its axis. -/
private theorem mem_written_block (t : Fin cfg1.N) (i : S100000x32.Idx) :
    i ∈ ((cfg1.win 4).blk t).view.set
      ↔ ∀ a : Fin 2, win1_4.index t a * S5000x32.size a ≤ (i a).val
          ∧ (i a).val < win1_4.index t a * S5000x32.size a + S5000x32.size a := by
  show i ∈ ((View.whole main_v43).slice (win1_4.rect t)).set ↔ _
  rw [View.set_slice_whole, Rect.mem_set_unit]
  exact Iff.rfl

/-- The row blocks tile the array: row r lies in the block of point r / 5000, which writes back. -/
private theorem rows_covered (i : S100000x32.Idx) :
    ∃ t : Fin cfg1.N, (cfg1.win 4).flush t = true ∧ i ∈ ((cfg1.win 4).blk t).view.set := by
  have hr : (i 0).val < 100000 := idx2_lt0 i
  have hl : (i 1).val < 32 := idx2_lt1 i
  have hN : cfg1.N = 20 := N_1
  have ht : (i 0).val / 5000 < cfg1.N := by rw [hN]; omega
  obtain ⟨-, -, -, -, -, -, -, -, o0, o1⟩ := block_indices ⟨(i 0).val / 5000, ht⟩
  refine ⟨⟨(i 0).val / 5000, ht⟩, flush1_4 _, ?_⟩
  rw [mem_written_block]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win1_4.index ⟨(i 0).val / 5000, ht⟩ (1 : Fin 2) * 32 ≤ (i 1).val
      ∧ (i 1).val < win1_4.index ⟨(i 0).val / 5000, ht⟩ (1 : Fin 2) * 32 + 32
    rw [o1]; omega

theorem combine_value (c : Dev nD) (i : S100000x32.Idx) :
    ((dat1 (F := Ideal) V c).arrAt 4 cfg1.N : FVec Ideal S100000x32 .f32) i
      = combineAt (V c main_v39) (V c main_v4) (V c main_v41) (V c main_v42) i := by
  have h := (dat1 (F := Ideal) V c).arrAt_eq_of_cover 4
    (fun i => combineAt (V c main_v39) (V c main_v4) (V c main_v41) (V c main_v42) i)
    (fun t _ => written_block V c t) rows_covered
  exact congrFun h i

end Cert.KernelIdeal.Val

end
-- ==== Proof.StagesB.lean ====
/- The second stretch of host operations — degrees, their inverse square roots, the gathered and scattered
   messages — is the reference's, line by line: every buffer the second launch reads is the reference's stage. Then the
   second launch leaves the reference's tanh stage. -/
import proofs.«428264_j44092134260958_1_alg».proof.Proof.StagesA
import proofs.«428264_j44092134260958_1_alg».proof.Proof.Combine
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

open Idealize.ShloMosaic.StableHlo

variable (m : (ℓ : Loc nD τ sig) → Buf (Elt Ideal) ℓ) (ρ : Dev nD → PrngReg)

theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact W2_arg2 m ρ c
theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg5 m ρ c
theorem W3_arg6 (c : Dev nD) : W3 m ρ c (Proc.devRef .tc main_arg6) = m ((c : Thread nD τ).loc main_arg6) := by
  show StableHlo.after hostOps1 (W2 m ρ c) (Proc.devRef .tc main_arg6) = _
  after_results_simp
  exact W2_arg6 m ρ c

/-- The product array is not written by the stretch. -/
theorem W3_v4 (c : Dev nD) : W3 m ρ c (Proc.devRef .tc main_v4)
    = Cert.ReferenceIdeal.Read.val_main_v0 (F := Ideal) (m ((c : Thread nD τ).loc main_arg0)) (m ((c : Thread nD τ).loc main_arg3)) := by
  show StableHlo.after hostOps1 (W2 m ρ c) (Proc.devRef .tc main_v4) = _
  after_results_simp
  exact W2_v4 m ρ c

set_option maxHeartbeats 4000000 in
set_option maxRecDepth 8192 in
/-- The scattered messages: the reference's stage. -/
theorem W3_v39 (c : Dev nD) : W3 m ρ c (Proc.devRef .tc main_v39)
    = Cert.ReferenceIdeal.Read.val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v39) = _
  after_results_simp
  rw [W2_v1, W2_v3, W2_v4]
  rfl

set_option maxHeartbeats 4000000 in
set_option maxRecDepth 8192 in
/-- The squared inverse square root of the degrees, as a column. -/
theorem W3_v41 (c : Dev nD) : W3 m ρ c (Proc.devRef .tc main_v41)
    = shapeCast S100000x1 (Cert.ReferenceIdeal.Read.val_main_v40 (F := Ideal) (m ((c : Thread nD τ).loc main_arg1))) shapeCasts_S100000_S100000x1 := by
  show StableHlo.after hostOps1 (W2 m ρ c) (Proc.devRef .tc main_v41) = _
  after_results_simp
  rw [W2_v3]
  rfl

set_option maxHeartbeats 4000000 in
set_option maxRecDepth 8192 in
/-- The bias as a row. -/
theorem W3_v42 (c : Dev nD) : W3 m ρ c (Proc.devRef .tc main_v42)
    = shapeCast S1x32 (m ((c : Thread nD τ).loc main_arg4)) shapeCasts_S32_S1x32 := by
  show StableHlo.after hostOps1 (W2 m ρ c) (Proc.devRef .tc main_v42) = _
  after_results_simp
  rw [W2_arg4]
  rfl

/-! ## The second launch leaves the reference's tanh stage -/

/-- A vector cast to a column reads, at (n, 0), the vector at n. -/
theorem col_apply {α : Type} (y : S100000.Idx → α) (i : Cert.ReferenceIdeal.S100000x32.Idx) :
    shapeCast S100000x1 y shapeCasts_S100000_S100000x1 (Cert.ReferenceIdeal.Read.idx_main_v42 i) = y (Cert.ReferenceIdeal.Read.idx_main_v41 (Cert.ReferenceIdeal.Read.idx_main_v42 i)) :=
  shapeCast_apply y _ _ _ (by
    rw [Shape.rowMajor_val_two, Shape.rowMajor_val_one]
    show (i 0).val = (i 0).val * 1 + 0
    omega)

/-- A vector cast to a row reads, at (0, e), the vector at e. -/
theorem row_apply {α : Type} (y : S32.Idx → α) (i : Cert.ReferenceIdeal.S100000x32.Idx) :
    shapeCast S1x32 y shapeCasts_S32_S1x32 (Cert.ReferenceIdeal.Read.idx_main_v46 i) = y (Cert.ReferenceIdeal.Read.idx_main_v45 (Cert.ReferenceIdeal.Read.idx_main_v46 i)) :=
  shapeCast_apply y _ _ _ (by
    rw [Shape.rowMajor_val_two, Shape.rowMajor_val_one]
    show (i 1).val = 0 * 32 + (i 1).val
    omega)

/-- After the second launch the feature array is the reference's tanh stage: entry by entry both are
    tanh ((agg + xw · dinv²) + b1), the column and the row read at the entry's row and column. -/
theorem W4_v43 (c : Dev nD) : W4 m ρ c (Proc.devRef .tc main_v43)
    = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := by
  refine (W4_arr m ρ c 4).trans ?_
  funext i
  refine (combine_value (V3 m ρ) c i).trans ?_
  have e39 : V3 m ρ c main_v39 = _ := W3_v39 m ρ c
  have e4 : V3 m ρ c main_v4 = _ := W3_v4 m ρ c
  have e41 : V3 m ρ c main_v41 = _ := W3_v41 m ρ c
  have e42 : V3 m ρ c main_v42 = _ := W3_v42 m ρ c
  unfold combineAt
  rw [e39, e4, e41, e42, col_apply, row_apply,
    Cert.ReferenceIdeal.Read.val_main_v48_apply, Cert.ReferenceIdeal.Read.val_main_v47_apply, Cert.ReferenceIdeal.Read.val_main_v44_apply, Cert.ReferenceIdeal.Read.val_main_v43_apply,
    Cert.ReferenceIdeal.Read.val_main_v42_apply, Cert.ReferenceIdeal.Read.val_main_v41_apply, Cert.ReferenceIdeal.Read.val_main_v46_apply, Cert.ReferenceIdeal.Read.val_main_v45_apply]
  rfl

end Cert.KernelIdeal.Val

end
-- ==== Proof.PoolSpec.lean ====
/- The pooled sums and counts as plain sums over the nodes, tile by tile: node 2000·t + r is row r of tile t. -/
import proofs.«428264_j44092134260958_1_alg».proof.KernelIdeal
import Idealize.ShloMosaic.Lib.ValueIdx
import Idealize.ShloMosaic.PureOps.Ideal

noncomputable section

open Idealize.ShloMosaic

namespace Cert.KernelIdeal.Val

open Cert.KernelIdeal

/-- The one-hot weight of a node whose graph word is `b` in graph `g`'s row: one when the word is `g`, else zero. -/
def oh (b : BitVec 32) (g : ℕ) : EReal := if b = BitVec.ofNat 32 g then 1 else 0

/-- Row `r` of tile `t` is node `2000·t + r`. -/
def node (t : Fin 50) (r : Fin 2000) : Fin 100000 :=
  ⟨2000 * t.val + r.val, by have := t.isLt; have := r.isLt; omega⟩

/-- Entry (n, e) of a [100000, 32] array. -/
abbrev featIx (n : Fin 100000) (e : Fin 32) : S100000x32.Idx := ValueIdx.ix2 n e
/-- Entry (n, 0) of a [100000, 1] array. -/
abbrev colIx (n : Fin 100000) : S100000x1.Idx := ValueIdx.ix2 n (0 : Fin 1)

/-- The pooled sums: entry (g, e) adds feature e of every node whose graph word is g. -/
def poolS (h : FVec Ideal S100000x32 .f32) (b : IVec S100000x1 32) : FVec Ideal S256x32 .f32 :=
  fun j => ∑ t : Fin 50, ∑ r : Fin 2000, oh (b (colIx (node t r))) (j 0).val * h (featIx (node t r) ⟨(j 1).val, (j 1).isLt⟩)

/-- The pooled counts: entry (g, 0) counts the nodes whose graph word is g. -/
def poolC (b : IVec S100000x1 32) : FVec Ideal S256x1 .f32 :=
  fun j => ∑ t : Fin 50, ∑ r : Fin 2000, oh (b (colIx (node t r))) (j 0).val

end Cert.KernelIdeal.Val

end
-- ==== Proof.PoolPay.lean ====
/- The pooling body's arithmetic at one entry: a tile's one-hot product adds, to entry (g, e), feature e of the tile's rows whose graph word is g. -/
import proofs.«428264_j44092134260958_1_alg».proof.Proof.Gen.KernelIdeal.Skeleton
import proofs.«428264_j44092134260958_1_alg».proof.Proof.PoolSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

/-- A column of words broadcast along the 256 lanes reads its row's word at every lane. -/
private theorem bcast_col (v : IVec S2000x1 32) (r : Fin 2000) (g : Fin 256) :
    broadcastTo S2000x256 v broadcasts_S2000x1_S2000x256 (ValueIdx.ix2 r g) = v (ValueIdx.ix2 r (0 : Fin 1)) := by
  refine broadcastTo_apply v broadcasts_S2000x1_S2000x256 _ _ (fun a => ?_)
  match a with
  | ⟨0, _⟩ => rfl
  | ⟨1, _⟩ => rfl

/-- The comparison bit of a word with a lane number, zero-extended and read as a signed integer, is the one-hot weight. -/
private theorem onehot_word (b : BitVec 32) (g : ℕ) :
    (FloatOps.sitofp (F := Ideal) .f32 (BitVec.setWidth 32 (IntOp.cmpi .eq b (BitVec.ofNat 32 g))) : EReal) = oh b g := by
  unfold oh
  by_cases h : b = BitVec.ofNat 32 g
  · rw [if_pos h, IntOp.cmpi_eq.mpr h]
    show (((BitVec.setWidth 32 1#1).toInt : ℝ) : EReal) = 1
    rw [show (BitVec.setWidth 32 1#1).toInt = 1 by decide]
    norm_num
  · rw [if_neg h, ValueIdx.eq_zero_of_ne_one (fun hc => h (IntOp.cmpi_eq.mp hc))]
    show (((BitVec.setWidth 32 0#1).toInt : ℝ) : EReal) = 0
    rw [show (BitVec.setWidth 32 0#1).toInt = 0 by decide]
    norm_num

/-- The one-hot matrix: entry (r, g) is the weight of row r's word in graph g. -/
private theorem pay3_apply (x1 : Vec Ideal S2000x1 .i32) (r : Fin 2000) (g : Fin 256) :
    k2_pay3 (F := Ideal) x1 (ValueIdx.ix2 r g) = oh (x1 (ValueIdx.ix2 r (0 : Fin 1))) g.val := by
  unfold k2_pay3
  rw [ValueIdx.truncf_apply, ValueIdx.sitofp_apply, ValueIdx.extui_apply]
  show FloatOps.sitofp FTy.f32 (BitVec.setWidth 32 (IntOp.cmpi .eq
      (broadcastTo S2000x256 (shapeCast S2000x1 x1 shapeCasts_S2000x1_S2000x1) broadcasts_S2000x1_S2000x256 (ValueIdx.ix2 r g))
      (iota Kind.tc S2000x256 32 [1] iota_S2000x256_d1_w32 (ValueIdx.ix2 r g)))) = _
  rw [shapeCast_self, bcast_col, iota_single_apply]
  exact onehot_word _ _

/-- The sums' initial block is the broadcast zero word. -/
theorem pay1_apply (j : S256x32.Idx) : (k2_pay1 (F := Ideal)) j = 0 := by
  unfold k2_pay1
  rw [ValueIdx.broadcast_apply]
  exact Ideal.ofBits_zero_f32

/-- The counts' initial block is the broadcast zero word. -/
theorem pay2_apply (j : S256x1.Idx) : (k2_pay2 (F := Ideal)) j = 0 := by
  unfold k2_pay2
  rw [ValueIdx.broadcast_apply]
  exact Ideal.ofBits_zero_f32

/-! The operand indices of the [2000,256]ᵀ × [2000,32] product: axis 0 of each operand is the contracted row, axis 1 the free coordinate. -/
private theorem lhs_feat_0 (i : S256x32.Idx) (q : dot_S2000x256_S2000x32_S256x32_0_0_1_1_n_n.contr.Idx) :
    (dot_S2000x256_S2000x32_S256x32_0_0_1_1_n_n.lhsIdx i q 0).val = (q ⟨0, by decide⟩).val :=
  dot_S2000x256_S2000x32_S256x32_0_0_1_1_n_n.lhsIdx_val_of_single rfl i q
private theorem lhs_feat_1 (i : S256x32.Idx) (q : dot_S2000x256_S2000x32_S256x32_0_0_1_1_n_n.contr.Idx) :
    (dot_S2000x256_S2000x32_S256x32_0_0_1_1_n_n.lhsIdx i q 1).val = (i 0).val := by
  unfold DotDims.lhsIdx
  rw [dif_neg (show ¬(1 : Fin S2000x256.rank) ∈ dot_S2000x256_S2000x32_S256x32_0_0_1_1_n_n.lhsBatch by decide), dif_pos (show (1 : Fin S2000x256.rank) ∈ dot_S2000x256_S2000x32_S256x32_0_0_1_1_n_n.lhsNonContracting by decide)]
  rfl
private theorem rhs_feat_0 (i : S256x32.Idx) (q : dot_S2000x256_S2000x32_S256x32_0_0_1_1_n_n.contr.Idx) :
    (dot_S2000x256_S2000x32_S256x32_0_0_1_1_n_n.rhsIdx i q 0).val = (q ⟨0, by decide⟩).val :=
  dot_S2000x256_S2000x32_S256x32_0_0_1_1_n_n.rhsIdx_val_of_single rfl i q
private theorem rhs_feat_1 (i : S256x32.Idx) (q : dot_S2000x256_S2000x32_S256x32_0_0_1_1_n_n.contr.Idx) :
    (dot_S2000x256_S2000x32_S256x32_0_0_1_1_n_n.rhsIdx i q 1).val = (i 1).val := by
  unfold DotDims.rhsIdx
  rw [dif_neg (show ¬(1 : Fin S2000x32.rank) ∈ dot_S2000x256_S2000x32_S256x32_0_0_1_1_n_n.rhsBatch by decide), dif_pos (show (1 : Fin S2000x32.rank) ∈ dot_S2000x256_S2000x32_S256x32_0_0_1_1_n_n.rhsNonContracting by decide)]
  rfl

theorem pay4_apply (x0 : Vec Ideal S2000x32 .f32) (x1 : Vec Ideal S2000x1 .i32) (acc : Vec Ideal S256x32 .f32)
    (j : S256x32.Idx) :
    k2_pay4 (F := Ideal) x0 x1 acc j
      = acc j + ∑ r : Fin 2000, oh (x1 (ValueIdx.ix2 r (0 : Fin 1))) (j 0).val
          * x0 (ValueIdx.ix2 r (⟨(j 1).val, (j 1).isLt⟩ : Fin 32)) := by
  obtain ⟨p, q, rfl⟩ : ∃ (p : Fin 256) (q : Fin 32), j = ValueIdx.ix2 p q := ⟨j 0, j 1, ValueIdx.eq_ix2 j⟩
  unfold k2_pay4
  rw [ValueIdx.addf_apply, shapeCast_self]
  simp only [matmul]
  rw [Ideal.matmul_constant_zero_apply, ← Equiv.sum_comp (ValueIdx.contrEquiv1 dot_S2000x256_S2000x32_S256x32_0_0_1_1_n_n 2000 rfl rfl).symm]
  refine congrArg (fun s => acc (ValueIdx.ix2 p q) + s) (Finset.sum_congr rfl fun r _ => ?_)
  have hk := ValueIdx.contrEquiv1_symm_val dot_S2000x256_S2000x32_S256x32_0_0_1_1_n_n 2000 rfl rfl r
  have el : dot_S2000x256_S2000x32_S256x32_0_0_1_1_n_n.lhsIdx (ValueIdx.ix2 p q) ((ValueIdx.contrEquiv1 dot_S2000x256_S2000x32_S256x32_0_0_1_1_n_n 2000 rfl rfl).symm r) = ValueIdx.ix2 r p := funext fun a => Fin.ext (by
    match a with
    | ⟨0, _⟩ => exact (lhs_feat_0 _ _).trans hk
    | ⟨1, _⟩ => exact lhs_feat_1 _ _)
  have er : dot_S2000x256_S2000x32_S256x32_0_0_1_1_n_n.rhsIdx (ValueIdx.ix2 p q) ((ValueIdx.contrEquiv1 dot_S2000x256_S2000x32_S256x32_0_0_1_1_n_n 2000 rfl rfl).symm r) = ValueIdx.ix2 r q := funext fun a => Fin.ext (by
    match a with
    | ⟨0, _⟩ => exact (rhs_feat_0 _ _).trans hk
    | ⟨1, _⟩ => exact rhs_feat_1 _ _)
  rw [el, er, pay3_apply, ValueIdx.truncf_apply, shapeCast_self]

/-! The left operand's indices of the [2000,256]ᵀ × [2000,1] product: axis 0 is the contracted row, axis 1 the graph. -/
private theorem lhs_cnt_0 (i : S256x1.Idx) (q : dot_S2000x256_S2000x1_S256x1_0_0_1_1_n_n.contr.Idx) :
    (dot_S2000x256_S2000x1_S256x1_0_0_1_1_n_n.lhsIdx i q 0).val = (q ⟨0, by decide⟩).val :=
  dot_S2000x256_S2000x1_S256x1_0_0_1_1_n_n.lhsIdx_val_of_single rfl i q
private theorem lhs_cnt_1 (i : S256x1.Idx) (q : dot_S2000x256_S2000x1_S256x1_0_0_1_1_n_n.contr.Idx) :
    (dot_S2000x256_S2000x1_S256x1_0_0_1_1_n_n.lhsIdx i q 1).val = (i 0).val := by
  unfold DotDims.lhsIdx
  rw [dif_neg (show ¬(1 : Fin S2000x256.rank) ∈ dot_S2000x256_S2000x1_S256x1_0_0_1_1_n_n.lhsBatch by decide), dif_pos (show (1 : Fin S2000x256.rank) ∈ dot_S2000x256_S2000x1_S256x1_0_0_1_1_n_n.lhsNonContracting by decide)]
  rfl

theorem pay5_apply (x1 : Vec Ideal S2000x1 .i32) (acc : Vec Ideal S256x1 .f32) (j : S256x1.Idx) :
    k2_pay5 (F := Ideal) x1 acc j = acc j + ∑ r : Fin 2000, oh (x1 (ValueIdx.ix2 r (0 : Fin 1))) (j 0).val := by
  obtain ⟨p, q, rfl⟩ : ∃ (p : Fin 256) (q : Fin 1), j = ValueIdx.ix2 p q := ⟨j 0, j 1, ValueIdx.eq_ix2 j⟩
  unfold k2_pay5
  rw [ValueIdx.addf_apply, shapeCast_self]
  simp only [matmul]
  rw [Ideal.matmul_constant_zero_apply, ← Equiv.sum_comp (ValueIdx.contrEquiv1 dot_S2000x256_S2000x1_S256x1_0_0_1_1_n_n 2000 rfl rfl).symm]
  refine congrArg (fun s => acc (ValueIdx.ix2 p q) + s) (Finset.sum_congr rfl fun r _ => ?_)
  have hk := ValueIdx.contrEquiv1_symm_val dot_S2000x256_S2000x1_S256x1_0_0_1_1_n_n 2000 rfl rfl r
  have el : dot_S2000x256_S2000x1_S256x1_0_0_1_1_n_n.lhsIdx (ValueIdx.ix2 p q) ((ValueIdx.contrEquiv1 dot_S2000x256_S2000x1_S256x1_0_0_1_1_n_n 2000 rfl rfl).symm r) = ValueIdx.ix2 r p := funext fun a => Fin.ext (by
    match a with
    | ⟨0, _⟩ => exact (lhs_cnt_0 _ _).trans hk
    | ⟨1, _⟩ => exact lhs_cnt_1 _ _)
  rw [el, pay3_apply, ValueIdx.broadcast_apply]
  show oh _ _ * Ideal.ofBits .bf16 0x3F80#16 = _
  rw [Ideal.ofBits_one_bf16, mul_one]

end Cert.KernelIdeal.Val

end
-- ==== Proof.PoolFrame.lean ====
/- The third launch: fifty tiles of 2000 nodes, the two outputs kept in place from tile to tile and written back once, end at the pooled sums and counts over all the nodes. -/
import proofs.«428264_j44092134260958_1_alg».proof.Proof.Gen.KernelIdeal.Frame
import proofs.«428264_j44092134260958_1_alg».proof.Proof.PoolSpec
import proofs.«428264_j44092134260958_1_alg».proof.Proof.PoolPay
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

/-! ## What each case of the body leaves in the two buffers -/

section Pieces

variable {F : FTy → Type} [FloatOps F]

/-- The zero offsets of a rank-2 access, however spelt. -/
private theorem hz2 : (![0, 0] : Fin 2 → Nat) = fun _ => 0 := funext fun a => by fin_cases a <;> rfl

/-- A later tile leaves in the sums' buffer, holding `xo2`, the tile's update of `xo2`: its one store covers the buffer
    and its loads read the whole buffers. -/
private theorem sums_later (c : Dev nD) (i : grid2.Coords) (a1 : Memref sig .tc .vmem S2000x32 .f32) (h1 : a1.IsWhole)
    (a2 : Memref sig .tc .vmem S2000x1 .i32) (h2 : a2.IsWhole) (a3 : Memref sig .tc .vmem S256x32 .f32) (h3 : a3.IsWhole)
    (a4 : Memref sig .tc .vmem S256x1 .f32) (h4 : a4.IsWhole) (hc : ¬cond2_0 i)
    (x0 : Vec F S2000x32 .f32) (x1 : Vec F S2000x1 .i32) (xo2 : Vec F S256x32 .f32) (xo3 : Vec F S256x1 .f32) :
    out2_B_2 c i a1 h1 a2 h2 a3 h3 a4 h4 hc x0 x1 xo2 xo3 = k2_pay4 x0 x1 xo2 := by
  unfold out2_B_2
  rw [View.read_writes_eq_canon _ _ _ (cover2_B_2 c i a1 h1 a2 h2 a3 h3 a4 h4 hc x0 x1 xo2 xo3)]
  unfold kernelRun2_B
  dsimp only
  sl_unfold_words
  rw [View.canon_unit_zero hz2]
  simp only [View.readAt_eq_ld, h1.read_unread, h2.read_unread, h3.read_unread,
    View.ld_unit_zero (S := S2000x32) hz2, View.ld_unit_zero (S := S2000x1) hz2, View.ld_unit_zero (S := S256x32) hz2]

/-- and in the counts' buffer, holding `xo3`, the tile's update of `xo3`. -/
private theorem counts_later (c : Dev nD) (i : grid2.Coords) (a1 : Memref sig .tc .vmem S2000x32 .f32) (h1 : a1.IsWhole)
    (a2 : Memref sig .tc .vmem S2000x1 .i32) (h2 : a2.IsWhole) (a3 : Memref sig .tc .vmem S256x32 .f32) (h3 : a3.IsWhole)
    (a4 : Memref sig .tc .vmem S256x1 .f32) (h4 : a4.IsWhole) (hc : ¬cond2_0 i)
    (x0 : Vec F S2000x32 .f32) (x1 : Vec F S2000x1 .i32) (xo2 : Vec F S256x32 .f32) (xo3 : Vec F S256x1 .f32) :
    out2_B_3 c i a1 h1 a2 h2 a3 h3 a4 h4 hc x0 x1 xo2 xo3 = k2_pay5 x1 xo3 := by
  unfold out2_B_3
  rw [View.read_writes_eq_canon _ _ _ (cover2_B_3 c i a1 h1 a2 h2 a3 h3 a4 h4 hc x0 x1 xo2 xo3)]
  unfold kernelRun2_B
  dsimp only
  sl_unfold_words
  rw [View.canon_unit_zero hz2]
  simp only [View.readAt_eq_ld, h2.read_unread, h4.read_unread,
    View.ld_unit_zero (S := S2000x1) hz2, View.ld_unit_zero (S := S256x1) hz2]

/-- The first tile stores the zero block, reads it back and leaves the tile's update of it. -/
private theorem sums_first (c : Dev nD) (i : grid2.Coords) (a1 : Memref sig .tc .vmem S2000x32 .f32) (h1 : a1.IsWhole)
    (a2 : Memref sig .tc .vmem S2000x1 .i32) (h2 : a2.IsWhole) (a3 : Memref sig .tc .vmem S256x32 .f32) (h3 : a3.IsWhole)
    (a4 : Memref sig .tc .vmem S256x1 .f32) (h4 : a4.IsWhole) (hc : cond2_0 i)
    (x0 : Vec F S2000x32 .f32) (x1 : Vec F S2000x1 .i32) :
    out2_A_2 c i a1 h1 a2 h2 a3 h3 a4 h4 hc x0 x1 = k2_pay4 x0 x1 k2_pay1 := by
  unfold out2_A_2
  rw [View.read_writes_eq_canon _ _ _ (cover2_A_2 c i a1 h1 a2 h2 a3 h3 a4 h4 hc x0 x1)]
  unfold kernelRun2_A
  dsimp only
  sl_unfold_words
  rw [View.canon_cons_unit_zero (S := S256x32) hz2, View.readCov_unit_zero (S := S256x32) _ hz2]
  simp only [View.readAt_eq_ld, h1.read_unread, h2.read_unread,
    View.ld_unit_zero (S := S2000x32) hz2, View.ld_unit_zero (S := S2000x1) hz2]

private theorem counts_first (c : Dev nD) (i : grid2.Coords) (a1 : Memref sig .tc .vmem S2000x32 .f32) (h1 : a1.IsWhole)
    (a2 : Memref sig .tc .vmem S2000x1 .i32) (h2 : a2.IsWhole) (a3 : Memref sig .tc .vmem S256x32 .f32) (h3 : a3.IsWhole)
    (a4 : Memref sig .tc .vmem S256x1 .f32) (h4 : a4.IsWhole) (hc : cond2_0 i)
    (x0 : Vec F S2000x32 .f32) (x1 : Vec F S2000x1 .i32) :
    out2_A_3 c i a1 h1 a2 h2 a3 h3 a4 h4 hc x0 x1 = k2_pay5 x1 k2_pay2 := by
  unfold out2_A_3
  rw [View.read_writes_eq_canon _ _ _ (cover2_A_3 c i a1 h1 a2 h2 a3 h3 a4 h4 hc x0 x1)]
  unfold kernelRun2_A
  dsimp only
  sl_unfold_words
  rw [View.canon_cons_unit_zero (S := S256x1) hz2, View.readCov_unit_zero (S := S256x1) _ hz2]
  simp only [View.readAt_eq_ld, h2.read_unread, View.ld_unit_zero (S := S2000x1) hz2]

end Pieces

variable (V : (c : Dev nD) → (b : Ref sig .tc) → Buf (Elt Ideal) ((c : Thread nD τ).loc b))

/-! ## The staged blocks are the arrays' rows -/

/-- Tile `t`'s 2000 rows of the features, as the launch stages them. -/
private abbrev hblk (c : Dev nD) (t : Fin cfg2.N) : Vec Ideal S2000x32 .f32 := iblk2 V c 0 t
/-- Tile `t`'s 2000 graph words. -/
private abbrev bblk (c : Dev nD) (t : Fin cfg2.N) : Vec Ideal S2000x1 .i32 := iblk2 V c 1 t
/-- The features of all the nodes. -/
private abbrev harr (c : Dev nD) : FVec Ideal S100000x32 .f32 := V c main_v43
/-- The graph words of all the nodes. -/
private abbrev barr (c : Dev nD) : IVec S100000x1 32 := V c main_v44

/-- A grid point as a tile number: the same natural, below fifty. -/
private def tile (t : Fin cfg2.N) : Fin 50 := ⟨t.val, lt_of_lt_of_eq t.isLt N_2⟩

/-- The features' window sits, at point `t`, on row block `t` and column block 0. -/
private theorem index_h : ∀ t : Fin cfg2.N, win2_0.index t 0 = t.val ∧ win2_0.index t 1 = 0 :=
  (by decide +kernel : ∀ t : Fin grid2.N, win2_0.index t 0 = t.val ∧ win2_0.index t 1 = 0)
/-- and so does the graph words'. -/
private theorem index_b : ∀ t : Fin cfg2.N, win2_1.index t 0 = t.val ∧ win2_1.index t 1 = 0 :=
  (by decide +kernel : ∀ t : Fin grid2.N, win2_1.index t 0 = t.val ∧ win2_1.index t 1 = 0)

/-- Row `r`, feature `e` of tile `t`'s block is feature `e` of node `2000·t + r`: a block's coordinate in its array is
    the block index times the block's extent plus the coordinate inside the block. -/
private theorem hblk_apply (c : Dev nD) (t : Fin cfg2.N) (r : Fin 2000) (e : Fin 32) :
    hblk V c t (ValueIdx.ix2 r e) = harr V c (featIx (node (tile t) r) e) := by
  show iblk2 V c 0 t (ValueIdx.ix2 r e) = V c main_v43 (featIx (node (tile t) r) e)
  unfold iblk2
  rw [View.read_apply]
  show V c main_v43 _ = V c main_v43 _
  congr 1
  funext a
  apply Fin.ext
  match a with
  | ⟨0, _⟩ => show win2_0.index t 0 * 2000 + 1 * r.val = 2000 * t.val + r.val; rw [(index_h t).1]; omega
  | ⟨1, _⟩ => show win2_0.index t 1 * 32 + 1 * e.val = e.val; rw [(index_h t).2]; omega

/-- Row `r` of tile `t`'s graph words is the graph word of node `2000·t + r`. -/
private theorem bblk_apply (c : Dev nD) (t : Fin cfg2.N) (r : Fin 2000) :
    bblk V c t (ValueIdx.ix2 r (0 : Fin 1)) = barr V c (colIx (node (tile t) r)) := by
  show iblk2 V c 1 t (ValueIdx.ix2 r (0 : Fin 1)) = V c main_v44 (colIx (node (tile t) r))
  unfold iblk2
  rw [View.read_apply]
  show V c main_v44 _ = V c main_v44 _
  congr 1
  funext a
  apply Fin.ext
  match a with
  | ⟨0, _⟩ => show win2_1.index t 0 * 2000 + 1 * r.val = 2000 * t.val + r.val; rw [(index_b t).1]; omega
  | ⟨1, _⟩ => show win2_1.index t 1 * 1 + 1 * 0 = 0; rw [(index_b t).2]

/-! ## The buffers after each point -/

/-- What tile `t` adds to entry `j` of the sums: the features of its rows whose graph word is `j`'s graph. -/
private def tileS (c : Dev nD) (t : Fin 50) (j : S256x32.Idx) : EReal :=
  ∑ r : Fin 2000, oh (barr V c (colIx (node t r))) (j 0).val * harr V c (featIx (node t r) ⟨(j 1).val, (j 1).isLt⟩)
/-- What tile `t` adds to entry `j` of the counts: one for each of its rows whose graph word is `j`'s graph. -/
private def tileC (c : Dev nD) (t : Fin 50) (j : S256x1.Idx) : EReal :=
  ∑ r : Fin 2000, oh (barr V c (colIx (node t r))) (j 0).val

/-- The same, total in the tile number (nothing from a number that is no tile). -/
private def addS (c : Dev nD) (j : S256x32.Idx) (k : ℕ) : EReal := if h : k < 50 then tileS V c ⟨k, h⟩ j else 0
private def addC (c : Dev nD) (j : S256x1.Idx) (k : ℕ) : EReal := if h : k < 50 then tileC V c ⟨k, h⟩ j else 0

/-- At point `t` the body's update adds tile `t`'s part to the sums it finds: the staged blocks are the arrays' rows. -/
private theorem update_sums (c : Dev nD) (t : Fin cfg2.N) (acc : Vec Ideal S256x32 .f32) (j : S256x32.Idx) :
    k2_pay4 (F := Ideal) (hblk V c t) (bblk V c t) acc j = acc j + tileS V c (tile t) j := by
  rw [pay4_apply (hblk V c t) (bblk V c t) acc j]
  unfold tileS
  congr 1
  refine Finset.sum_congr rfl fun r _ => ?_
  rw [hblk_apply V c t r, bblk_apply V c t r]
private theorem update_counts (c : Dev nD) (t : Fin cfg2.N) (acc : Vec Ideal S256x1 .f32) (j : S256x1.Idx) :
    k2_pay5 (F := Ideal) (bblk V c t) acc j = acc j + tileC V c (tile t) j := by
  rw [pay5_apply (bblk V c t) acc j]
  unfold tileC
  congr 1
  refine Finset.sum_congr rfl fun r _ => ?_
  rw [bblk_apply V c t r]

/-- After point `n` the sums' buffer holds the parts of tiles 0 … n: the first point starts from the zero block, each
    later one adds its tile to what the point before left. By induction on the point. -/
private theorem sums_upto (c : Dev nD) : ∀ (n : ℕ) (hn : n < cfg2.N) (j : S256x32.Idx),
    (outsAt2 V c n hn).1 j = ∑ k ∈ Finset.range (n + 1), addS V c j k
  | 0, hn, j => by
    rw [outsAt2_A V c ⟨0, hn⟩ rfl]; dsimp only
    refine (congrFun (sums_first (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) (ms2_3 ⟨0, hn⟩) (hs2_3 ⟨0, hn⟩) ((hcond2_0 ⟨0, hn⟩).mpr rfl)
      (hblk V c ⟨0, hn⟩) (bblk V c ⟨0, hn⟩)) j).trans ?_
    refine (update_sums V c ⟨0, hn⟩ (k2_pay1 (F := Ideal)) j).trans ?_
    rw [pay1_apply j, zero_add, Finset.sum_range_succ, Finset.sum_range_zero, zero_add]
    unfold addS; rw [dif_pos (by decide : 0 < 50)]; rfl
  | n + 1, hn, j => by
    have hN : cfg2.N = 50 := N_2
    have hB : ¬(⟨n + 1, hn⟩ : Fin cfg2.N).val % 50 = 0 := by dsimp only; omega
    rw [outsAt2_B V c ⟨n + 1, hn⟩ hB]; dsimp only
    refine (congrFun (sums_later (F := Ideal) c (grid2.coords ⟨n + 1, hn⟩) (ms2_0 ⟨n + 1, hn⟩) (hs2_0 ⟨n + 1, hn⟩) (ms2_1 ⟨n + 1, hn⟩) (hs2_1 ⟨n + 1, hn⟩)
      (ms2_2 ⟨n + 1, hn⟩) (hs2_2 ⟨n + 1, hn⟩) (ms2_3 ⟨n + 1, hn⟩) (hs2_3 ⟨n + 1, hn⟩) (fun h => hB ((hcond2_0 ⟨n + 1, hn⟩).mp h))
      (hblk V c ⟨n + 1, hn⟩) (bblk V c ⟨n + 1, hn⟩) (outsAt2 V c n (Nat.lt_of_succ_lt hn)).1 (outsAt2 V c n (Nat.lt_of_succ_lt hn)).2) j).trans ?_
    rw [update_sums V c ⟨n + 1, hn⟩ (outsAt2 V c n (Nat.lt_of_succ_lt hn)).1 j, sums_upto c n (Nat.lt_of_succ_lt hn) j,
      Finset.sum_range_succ _ (n + 1)]
    congr 1
    unfold addS; rw [dif_pos (by omega : n + 1 < 50)]; rfl

/-- and the counts' buffer the counts of tiles 0 … n. -/
private theorem counts_upto (c : Dev nD) : ∀ (n : ℕ) (hn : n < cfg2.N) (j : S256x1.Idx),
    (outsAt2 V c n hn).2 j = ∑ k ∈ Finset.range (n + 1), addC V c j k
  | 0, hn, j => by
    rw [outsAt2_A V c ⟨0, hn⟩ rfl]; dsimp only
    refine (congrFun (counts_first (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) (ms2_3 ⟨0, hn⟩) (hs2_3 ⟨0, hn⟩) ((hcond2_0 ⟨0, hn⟩).mpr rfl)
      (hblk V c ⟨0, hn⟩) (bblk V c ⟨0, hn⟩)) j).trans ?_
    refine (update_counts V c ⟨0, hn⟩ (k2_pay2 (F := Ideal)) j).trans ?_
    rw [pay2_apply j, zero_add, Finset.sum_range_succ, Finset.sum_range_zero, zero_add]
    unfold addC; rw [dif_pos (by decide : 0 < 50)]; rfl
  | n + 1, hn, j => by
    have hN : cfg2.N = 50 := N_2
    have hB : ¬(⟨n + 1, hn⟩ : Fin cfg2.N).val % 50 = 0 := by dsimp only; omega
    rw [outsAt2_B V c ⟨n + 1, hn⟩ hB]; dsimp only
    refine (congrFun (counts_later (F := Ideal) c (grid2.coords ⟨n + 1, hn⟩) (ms2_0 ⟨n + 1, hn⟩) (hs2_0 ⟨n + 1, hn⟩) (ms2_1 ⟨n + 1, hn⟩) (hs2_1 ⟨n + 1, hn⟩)
      (ms2_2 ⟨n + 1, hn⟩) (hs2_2 ⟨n + 1, hn⟩) (ms2_3 ⟨n + 1, hn⟩) (hs2_3 ⟨n + 1, hn⟩) (fun h => hB ((hcond2_0 ⟨n + 1, hn⟩).mp h))
      (hblk V c ⟨n + 1, hn⟩) (bblk V c ⟨n + 1, hn⟩) (outsAt2 V c n (Nat.lt_of_succ_lt hn)).1 (outsAt2 V c n (Nat.lt_of_succ_lt hn)).2) j).trans ?_
    rw [update_counts V c ⟨n + 1, hn⟩ (outsAt2 V c n (Nat.lt_of_succ_lt hn)).2 j, counts_upto c n (Nat.lt_of_succ_lt hn) j,
      Finset.sum_range_succ _ (n + 1)]
    congr 1
    unfold addC; rw [dif_pos (by omega : n + 1 < 50)]; rfl

/-! ## The one write-back -/

/-- The two outputs have one block each: their windows sit on block (0, 0) at every point. -/
private theorem index_s : ∀ t : Fin cfg2.N, win2_2.index t 0 = 0 ∧ win2_2.index t 1 = 0 :=
  (by decide +kernel : ∀ t : Fin grid2.N, win2_2.index t 0 = 0 ∧ win2_2.index t 1 = 0)
private theorem index_c : ∀ t : Fin cfg2.N, win2_3.index t 0 = 0 ∧ win2_3.index t 1 = 0 :=
  (by decide +kernel : ∀ t : Fin grid2.N, win2_3.index t 0 = 0 ∧ win2_3.index t 1 = 0)

/-- After the last tile the sums' buffer holds the pooled sums: the parts of tiles 0 … 49 are all fifty. -/
private theorem sums_last (c : Dev nD) (t : Fin cfg2.N) (h : t.val = 49) :
    (outsAt2 V c t.val t.isLt).1 = poolS (harr V c) (barr V c) := by
  funext j
  rw [sums_upto V c t.val t.isLt j, h]
  show ∑ k ∈ Finset.range 50, addS V c j k = ∑ t : Fin 50, tileS V c t j
  rw [← Fin.sum_univ_eq_sum_range (fun k => addS V c j k) 50]
  refine Finset.sum_congr rfl fun t _ => ?_
  unfold addS; rw [dif_pos t.isLt]
/-- and the counts' buffer the pooled counts. -/
private theorem counts_last (c : Dev nD) (t : Fin cfg2.N) (h : t.val = 49) :
    (outsAt2 V c t.val t.isLt).2 = poolC (barr V c) := by
  funext j
  rw [counts_upto V c t.val t.isLt j, h]
  show ∑ k ∈ Finset.range 50, addC V c j k = ∑ t : Fin 50, tileC V c t j
  rw [← Fin.sum_univ_eq_sum_range (fun k => addC V c j k) 50]
  refine Finset.sum_congr rfl fun t _ => ?_
  unfold addC; rw [dif_pos t.isLt]

/-- The one write-back of the sums, after the last tile, writes the pooled sums: the block at zero offsets of the
    array's own extents is the array. -/
private theorem flushed_sums (c : Dev nD) (t : Fin cfg2.N) (hf : (cfg2.win 2).flush t = true) :
    (dat2 V c).flushed 2 t = ((cfg2.win 2).blk t).view.read (Elt Ideal) (poolS (harr V c) (barr V c)) := by
  have hN : cfg2.N = 50 := N_2
  have h49 : t.val = 49 := by have := (flush2_2 t).mp hf; have := t.isLt; omega
  show (cfg2.win 2).cut (grid2.coords t) ((dat2 V c).after 2 t) = _
  rw [after2_2 V c t, sums_last V c t h49]
  have hz' : (fun a => win2_2.index t a * main_v45_0.ty.shape.size a) = fun _ => 0 := funext fun a => by
    match a with
    | ⟨0, _⟩ => show win2_2.index t 0 * _ = 0; rw [(index_s t).1, Nat.zero_mul]
    | ⟨1, _⟩ => show win2_2.index t 1 * _ = 0; rw [(index_s t).2, Nat.zero_mul]
  exact (Memref.read_access_unit_zero (Elt Ideal) main_v45_0 hz' (fun a => by rw [congrFun hz' a]; simp)
    (poolS (harr V c) (barr V c))).symm
private theorem flushed_counts (c : Dev nD) (t : Fin cfg2.N) (hf : (cfg2.win 3).flush t = true) :
    (dat2 V c).flushed 3 t = ((cfg2.win 3).blk t).view.read (Elt Ideal) (poolC (barr V c)) := by
  have hN : cfg2.N = 50 := N_2
  have h49 : t.val = 49 := by have := (flush2_3 t).mp hf; have := t.isLt; omega
  show (cfg2.win 3).cut (grid2.coords t) ((dat2 V c).after 3 t) = _
  rw [after2_3 V c t, counts_last V c t h49]
  have hz' : (fun a => win2_3.index t a * main_v45_1.ty.shape.size a) = fun _ => 0 := funext fun a => by
    match a with
    | ⟨0, _⟩ => show win2_3.index t 0 * _ = 0; rw [(index_c t).1, Nat.zero_mul]
    | ⟨1, _⟩ => show win2_3.index t 1 * _ = 0; rw [(index_c t).2, Nat.zero_mul]
  exact (Memref.read_access_unit_zero (Elt Ideal) main_v45_1 hz' (fun a => by rw [congrFun hz' a]; simp)
    (poolC (barr V c))).symm

/-- The last point of the grid. -/
private def lastPt : Fin cfg2.N := ⟨49, by rw [show cfg2.N = 50 from N_2]; decide⟩

/-- Every entry of the sums' array lies in its one block, -/
private theorem mem_blk_sums (t : Fin cfg2.N) (i : S256x32.Idx) : i ∈ ((cfg2.win 2).blk t).view.set := by
  show i ∈ ((View.whole main_v45_0).slice (win2_2.rect t)).set
  rw [View.set_slice_whole, Rect.mem_set_unit]
  intro a
  have h0 : (i 0 : Nat) < 256 := (i 0).isLt
  have h1 : (i 1 : Nat) < 32 := (i 1).isLt
  match a with
  | ⟨0, _⟩ => show win2_2.index t 0 * 256 ≤ (i 0 : Nat) ∧ (i 0 : Nat) < win2_2.index t 0 * 256 + 256
              rw [(index_s t).1]; omega
  | ⟨1, _⟩ => show win2_2.index t 1 * 32 ≤ (i 1 : Nat) ∧ (i 1 : Nat) < win2_2.index t 1 * 32 + 32
              rw [(index_s t).2]; omega
/-- and every entry of the counts' array in its. -/
private theorem mem_blk_counts (t : Fin cfg2.N) (i : S256x1.Idx) : i ∈ ((cfg2.win 3).blk t).view.set := by
  show i ∈ ((View.whole main_v45_1).slice (win2_3.rect t)).set
  rw [View.set_slice_whole, Rect.mem_set_unit]
  intro a
  have h0 : (i 0 : Nat) < 256 := (i 0).isLt
  have h1 : (i 1 : Nat) < 1 := (i 1).isLt
  match a with
  | ⟨0, _⟩ => show win2_3.index t 0 * 256 ≤ (i 0 : Nat) ∧ (i 0 : Nat) < win2_3.index t 0 * 256 + 256
              rw [(index_c t).1]; omega
  | ⟨1, _⟩ => show win2_3.index t 1 * 1 ≤ (i 1 : Nat) ∧ (i 1 : Nat) < win2_3.index t 1 * 1 + 1
              rw [(index_c t).2]; omega

/-- The sums' array ends at the pooled sums: its one write-back, after the last tile, covers it. -/
theorem pool_sums_value (c : Dev nD) :
    ((dat2 (F := Ideal) V c).arrAt 2 cfg2.N : FVec Ideal S256x32 .f32) = poolS (V c main_v43) (V c main_v44) :=
  (dat2 V c).arrAt_eq_of_cover 2 (poolS (harr V c) (barr V c)) (flushed_sums V c) fun i =>
    ⟨lastPt, (flush2_2 lastPt).mpr rfl, mem_blk_sums lastPt i⟩

/-- The counts' array ends at the pooled counts. -/
theorem pool_counts_value (c : Dev nD) :
    ((dat2 (F := Ideal) V c).arrAt 3 cfg2.N : FVec Ideal S256x1 .f32) = poolC (V c main_v44) :=
  (dat2 V c).arrAt_eq_of_cover 3 (poolC (barr V c)) (flushed_counts V c) fun i =>
    ⟨lastPt, (flush2_3 lastPt).mpr rfl, mem_blk_counts lastPt i⟩

end Cert.KernelIdeal.Val

end
-- ==== Proof.PoolScatter.lean ====
/- The pooled sums and counts are the host's accumulating scatters of the node features, and of ones, by graph word. -/
import proofs.«428264_j44092134260958_1_alg».proof.Proof.Gen.ReferenceIdeal.Read
import proofs.«428264_j44092134260958_1_alg».proof.Proof.PoolSpec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal

/-! ## Where an update lands -/

/-- An update lands at `i` exactly when, on every operand axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro he a
      rw [← he]
      show _ = (((d.start j idx a + d.window j a).toNat : Nat) : Int)
      rw [Int.toNat_of_nonneg (h a).1]
    · intro he
      funext a
      apply Fin.ext
      show (d.start j idx a + d.window j a).toNat = (i a).val
      rw [he a]; exact Int.toNat_natCast _
  · rename_i h
    constructor
    · intro he; exact absurd he (by simp)
    · intro he; exfalso; apply h; intro a; rw [he a]; have := (i a).isLt; omega

/-- A graph word read signed is `g`, a number below 256, exactly when it is the 32-bit word of `g`. -/
private theorem toInt_eq_iff (w : BitVec 32) (g : Nat) (hg : g < 256) : w.toInt = (g : Int) ↔ w = BitVec.ofNat 32 g := by
  have hgi : (BitVec.ofNat 32 g).toInt = (g : Int) := by
    have hn : (BitVec.ofNat 32 g).toNat = g := by rw [BitVec.toNat_ofNat]; omega
    rw [BitVec.toInt_eq_toNat_of_lt (by rw [hn]; omega), hn]
  rw [← hgi]
  exact BitVec.toInt_inj

/-! ### The row scatter [100000, 32] → [256, 32] -/

/-- On the scattered axis the start is the node's graph word, read signed. -/
private theorem startS_0 (n : Fin 100000) (e : Fin 32) (b : IVec S100000x1 32) :
    Cert.ReferenceIdeal.scatter_S256x32_S100000x1_S100000x32_1_0_0_1.start (featIx n e) b 0 = (b (colIx n)).toInt := by
  unfold ScatterDims.start
  rw [dif_pos (show (0 : Fin Cert.ReferenceIdeal.S256x32.rank) ∈ Cert.ReferenceIdeal.scatter_S256x32_S100000x1_S100000x32_1_0_0_1.scatterDimsToOperandDims by decide)]
  refine congrArg (fun x => (b x).toInt) ?_
  funext a; apply Fin.ext
  match a with
  | ⟨0, _⟩ => rfl
  | ⟨1, _⟩ => rfl

/-- The feature axis is no scattered axis: its start is zero. -/
private theorem startS_1 (n : Fin 100000) (e : Fin 32) (b : IVec S100000x1 32) :
    Cert.ReferenceIdeal.scatter_S256x32_S100000x1_S100000x32_1_0_0_1.start (featIx n e) b 1 = 0 := by
  unfold ScatterDims.start
  rw [dif_neg (show ¬(1 : Fin Cert.ReferenceIdeal.S256x32.rank) ∈ Cert.ReferenceIdeal.scatter_S256x32_S100000x1_S100000x32_1_0_0_1.scatterDimsToOperandDims by decide)]

/-- The scattered axis is an inserted window axis: its window coordinate is zero. -/
private theorem windowS_0 (n : Fin 100000) (e : Fin 32) :
    Cert.ReferenceIdeal.scatter_S256x32_S100000x1_S100000x32_1_0_0_1.window (featIx n e) 0 = 0 := by
  unfold ScatterDims.window
  rw [dif_neg (show ¬(0 : Fin Cert.ReferenceIdeal.S256x32.rank) ∈ Cert.ReferenceIdeal.scatter_S256x32_S100000x1_S100000x32_1_0_0_1.sKept by decide)]

/-- The feature axis is the window axis: its window coordinate is the update's feature. -/
private theorem windowS_1 (n : Fin 100000) (e : Fin 32) :
    Cert.ReferenceIdeal.scatter_S256x32_S100000x1_S100000x32_1_0_0_1.window (featIx n e) 1 = e.val := by
  unfold ScatterDims.window
  rw [dif_pos (show (1 : Fin Cert.ReferenceIdeal.S256x32.rank) ∈ Cert.ReferenceIdeal.scatter_S256x32_S100000x1_S100000x32_1_0_0_1.sKept by decide)]
  rfl

/-- Update (n, e) lands at (g, e') exactly when node n's graph word is g and e = e'. -/
private theorem resultS_iff (b : IVec S100000x1 32) (n : Fin 100000) (e : Fin 32) (g : Fin 256) (e' : Fin 32) :
    Cert.ReferenceIdeal.scatter_S256x32_S100000x1_S100000x32_1_0_0_1.resultIdx? (featIx n e) b = some (ValueIdx.ix2 g e')
      ↔ b (colIx n) = BitVec.ofNat 32 g.val ∧ e = e' := by
  rw [resultIdx?_eq_some_iff, ← toInt_eq_iff _ _ g.isLt]
  constructor
  · intro hall
    have h0 := hall 0
    have h1 := hall 1
    rw [startS_0, windowS_0] at h0
    rw [startS_1, windowS_1] at h1
    refine ⟨?_, Fin.ext ?_⟩
    · have h0' : (b (colIx n)).toInt + ((0 : Nat) : Int) = (g.val : Int) := h0
      omega
    · have h1' : (0 : Int) + (e.val : Int) = (e'.val : Int) := h1
      omega
  · rintro ⟨h0, rfl⟩ a
    have ha : a = 0 ∨ a = 1 := by
      rcases a with ⟨_ | _ | k, hk⟩
      · exact Or.inl rfl
      · exact Or.inr rfl
      · exact absurd hk (by show ¬ k + 2 < 2; omega)
    rcases ha with rfl | rfl
    · rw [startS_0, windowS_0]
      show (b (colIx n)).toInt + ((0 : Nat) : Int) = (g.val : Int)
      omega
    · rw [startS_1, windowS_1]
      show (0 : Int) + (e.val : Int) = (e.val : Int)
      omega

/-! ### The scatter [100000] → [256] -/

/-- On the one axis the start is the node's graph word, read signed. -/
private theorem startC_0 (n : Fin 100000) (b : IVec S100000x1 32) :
    Cert.ReferenceIdeal.scatter_S256_S100000x1_S100000_n_0_0_1.start (ValueIdx.ix1 n) b 0 = (b (colIx n)).toInt := by
  unfold ScatterDims.start
  rw [dif_pos (show (0 : Fin Cert.ReferenceIdeal.S256.rank) ∈ Cert.ReferenceIdeal.scatter_S256_S100000x1_S100000_n_0_0_1.scatterDimsToOperandDims by decide)]
  refine congrArg (fun x => (b x).toInt) ?_
  funext a; apply Fin.ext
  match a with
  | ⟨0, _⟩ => rfl
  | ⟨1, _⟩ => rfl

/-- The one axis is an inserted window axis: its window coordinate is zero. -/
private theorem windowC_0 (n : Fin 100000) :
    Cert.ReferenceIdeal.scatter_S256_S100000x1_S100000_n_0_0_1.window (ValueIdx.ix1 n) 0 = 0 := by
  unfold ScatterDims.window
  rw [dif_neg (show ¬(0 : Fin Cert.ReferenceIdeal.S256.rank) ∈ Cert.ReferenceIdeal.scatter_S256_S100000x1_S100000_n_0_0_1.sKept by decide)]

/-- Update n lands at g exactly when node n's graph word is g. -/
private theorem resultC_iff (b : IVec S100000x1 32) (n : Fin 100000) (g : Fin 256) :
    Cert.ReferenceIdeal.scatter_S256_S100000x1_S100000_n_0_0_1.resultIdx? (ValueIdx.ix1 n) b = some (ValueIdx.ix1 g) ↔ b (colIx n) = BitVec.ofNat 32 g.val := by
  rw [resultIdx?_eq_some_iff, ← toInt_eq_iff _ _ g.isLt]
  constructor
  · intro hall
    have h0 := hall 0
    rw [startC_0, windowC_0] at h0
    have h0' : (b (colIx n)).toInt + ((0 : Nat) : Int) = (g.val : Int) := h0
    omega
  · intro h0 a
    have ha : a = 0 := by
      rcases a with ⟨_ | k, hk⟩
      · rfl
      · exact absurd hk (by show ¬ k + 1 < 1; omega)
    subst ha
    rw [startC_0, windowC_0]
    show (b (colIx n)).toInt + ((0 : Nat) : Int) = (g.val : Int)
    omega

/-! ## The nodes, tile by tile -/

/-- Node `2000·t + r` ↔ (tile t, row r). -/
private def nodeEquiv : Fin 50 × Fin 2000 ≃ Fin 100000 where
  toFun p := node p.1 p.2
  invFun n := (⟨n.val / 2000, by have := n.isLt; omega⟩, ⟨n.val % 2000, Nat.mod_lt _ (by decide)⟩)
  left_inv := by
    rintro ⟨t, r⟩
    have := t.isLt; have := r.isLt
    refine Prod.ext (Fin.ext ?_) (Fin.ext ?_)
    · show (2000 * t.val + r.val) / 2000 = t.val; omega
    · show (2000 * t.val + r.val) % 2000 = r.val; omega
  right_inv := by
    intro n
    refine Fin.ext ?_
    show 2000 * (n.val / 2000) + n.val % 2000 = n.val; omega

/-- A sum over the nodes is the sum over the tiles of the sums over their rows. -/
private theorem sum_nodes {M : Type*} [AddCommMonoid M] (f : Fin 100000 → M) :
    ∑ n, f n = ∑ t : Fin 50, ∑ r : Fin 2000, f (node t r) := by
  rw [← Equiv.sum_comp nodeEquiv f, Fintype.sum_prod_type]
  rfl

/-! ## The two scatters read at an entry -/

/-- Entry (g, e') of the row scatter into zeros: over the nodes, the one-hot weight of the node's graph word times its
    feature e'. -/
private theorem scatterS_apply (h : FVec Ideal S100000x32 .f32) (b : IVec S100000x1 32) (g : Fin 256) (e' : Fin 32) :
    Host.scatterAdd (F := Ideal) Cert.ReferenceIdeal.scatter_S256x32_S100000x1_S100000x32_1_0_0_1 (Cert.ReferenceIdeal.Read.val_main_v49 (F := Ideal)) b h (ValueIdx.ix2 g e')
      = ∑ n : Fin 100000, oh (b (colIx n)) g.val * h (featIx n e') := by
  unfold Host.scatterAdd
  rw [Ideal.hostScatterAdd_def]
  unfold Ideal.hostScatterAdd
  rw [Cert.ReferenceIdeal.Read.val_main_v49_apply, Cert.ReferenceIdeal.Read.val_main_cst_8_apply]
  show Ideal.ofBits .f32 0x00000000#32 + _ = _
  rw [Ideal.ofBits_zero_f32, zero_add, Finset.sum_filter, ValueIdx.sum_idx2]
  refine Finset.sum_congr rfl fun n _ => ?_
  rw [Finset.sum_eq_single e']
  · by_cases hw : b (colIx n) = BitVec.ofNat 32 g.val
    · rw [if_pos ((resultS_iff b n e' g e').2 ⟨hw, rfl⟩)]
      unfold oh; rw [if_pos hw, one_mul]
    · rw [if_neg (fun hc => hw ((resultS_iff b n e' g e').1 hc).1)]
      unfold oh; rw [if_neg hw, zero_mul]
  · intro e _ hne
    exact if_neg (fun hc => hne ((resultS_iff b n e g e').1 hc).2)
  · intro hc; exact absurd (Finset.mem_univ _) hc

/-- Entry g of the scatter of ones into zeros: over the nodes, the one-hot weight of the node's graph word. -/
private theorem scatterC_apply (b : IVec S100000x1 32) (g : Fin 256) :
    Host.scatterAdd (F := Ideal) (φ := .f32) Cert.ReferenceIdeal.scatter_S256_S100000x1_S100000_n_0_0_1 (Cert.ReferenceIdeal.Read.val_main_v53 (F := Ideal)) b (Cert.ReferenceIdeal.Read.val_main_v52 (F := Ideal)) (ValueIdx.ix1 g)
      = ∑ n : Fin 100000, oh (b (colIx n)) g.val := by
  unfold Host.scatterAdd
  rw [Ideal.hostScatterAdd_def]
  unfold Ideal.hostScatterAdd
  rw [Cert.ReferenceIdeal.Read.val_main_v53_apply, Cert.ReferenceIdeal.Read.val_main_cst_10_apply]
  show Ideal.ofBits .f32 0x00000000#32 + _ = _
  rw [Ideal.ofBits_zero_f32, zero_add, Finset.sum_filter]
  refine ((Equiv.sum_comp ValueIdx.idxEquiv1.symm _).symm).trans ?_
  refine Finset.sum_congr rfl fun n _ => ?_
  show (if Cert.ReferenceIdeal.scatter_S256_S100000x1_S100000_n_0_0_1.resultIdx? (ValueIdx.ix1 n) b = some (ValueIdx.ix1 g)
      then Cert.ReferenceIdeal.Read.val_main_v52 (F := Ideal) (ValueIdx.ix1 n) else 0) = _
  rw [Cert.ReferenceIdeal.Read.val_main_v52_apply, Cert.ReferenceIdeal.Read.val_main_cst_9_apply]
  show (if _ then Ideal.ofBits .f32 0x3F800000#32 else 0) = _
  rw [Ideal.ofBits_one_f32]
  unfold oh
  by_cases hw : b (colIx n) = BitVec.ofNat 32 g.val
  · rw [if_pos ((resultC_iff b n g).2 hw), if_pos hw]
  · rw [if_neg (fun hc => hw ((resultC_iff b n g).1 hc)), if_neg hw]

theorem poolS_eq_scatter (h : FVec Ideal S100000x32 .f32) (b : IVec S100000x1 32) :
    poolS h b = Host.scatterAdd (F := Ideal) Cert.ReferenceIdeal.scatter_S256x32_S100000x1_S100000x32_1_0_0_1
      (Cert.ReferenceIdeal.Read.val_main_v49 (F := Ideal)) b h := by
  funext j
  obtain ⟨g, e', rfl⟩ : ∃ (g : Fin 256) (e' : Fin 32), j = ValueIdx.ix2 g e' := ⟨j 0, j 1, ValueIdx.eq_ix2 j⟩
  rw [scatterS_apply, sum_nodes]
  rfl

theorem poolC_eq_scatter (b : IVec S100000x1 32) (j : S256x1.Idx) :
    poolC b j = Host.scatterAdd (F := Ideal) Cert.ReferenceIdeal.scatter_S256_S100000x1_S100000_n_0_0_1
      (Cert.ReferenceIdeal.Read.val_main_v53 (F := Ideal)) b (Cert.ReferenceIdeal.Read.val_main_v52 (F := Ideal))
      (Cert.ReferenceIdeal.Read.idx_main_v58 j) := by
  have hj : Cert.ReferenceIdeal.Read.idx_main_v58 j = ValueIdx.ix1 (⟨(j 0).val, ValueIdx.idx2_lt0 j⟩ : Fin 256) := by
    funext a
    match a with
    | ⟨0, _⟩ => rfl
  rw [hj, scatterC_apply, sum_nodes]
  rfl

end Cert.KernelIdeal.Val

end
-- ==== Proof.StagesC.lean ====
/- The third stretch reshapes the graph words into a column; the third launch then leaves, in its two outputs, the
   reference's two accumulating scatters by graph word: of the node features, and of ones. -/
import proofs.«428264_j44092134260958_1_alg».proof.Proof.StagesB
import proofs.«428264_j44092134260958_1_alg».proof.Proof.PoolSpec
import proofs.«428264_j44092134260958_1_alg».proof.Proof.PoolFrame
import proofs.«428264_j44092134260958_1_alg».proof.Proof.PoolScatter
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

open Idealize.ShloMosaic.StableHlo

variable (m : (ℓ : Loc nD τ sig) → Buf (Elt Ideal) ℓ) (ρ : Dev nD → PrngReg)

theorem W4_arg2 (c : Dev nD) : W4 m ρ c (Proc.devRef .tc main_arg2) = m ((c : Thread nD τ).loc main_arg2) :=
  (W4_of_ne m ρ c main_arg2 (by decide)).trans (W3_arg2 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

theorem W5_arg5 (c : Dev nD) : W5 m ρ c (Proc.devRef .tc main_arg5) = m ((c : Thread nD τ).loc main_arg5) := by
  show StableHlo.after hostOps2 (W4 m ρ c) (Proc.devRef .tc main_arg5) = _
  after_results_simp
  exact W4_arg5 m ρ c
theorem W5_arg6 (c : Dev nD) : W5 m ρ c (Proc.devRef .tc main_arg6) = m ((c : Thread nD τ).loc main_arg6) := by
  show StableHlo.after hostOps2 (W4 m ρ c) (Proc.devRef .tc main_arg6) = _
  after_results_simp
  exact W4_arg6 m ρ c

/-- The feature array is not written by the stretch. -/
theorem W5_v43 (c : Dev nD) : W5 m ρ c (Proc.devRef .tc main_v43)
    = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := by
  show StableHlo.after hostOps2 (W4 m ρ c) (Proc.devRef .tc main_v43) = _
  after_results_simp
  exact W4_v43 m ρ c

/-- The graph words as a column: the reshape reads, at (n, 0), the word of node n — what the reference's broadcast
    into a column reads there. -/
theorem words_col (x2 : (⟨S100000, .i32⟩ : BufTy).Contents (Elt Ideal)) :
    shapeCast S100000x1 x2 shapeCasts_S100000_S100000x1 = Cert.ReferenceIdeal.Read.val_main_v50 (F := Ideal) x2 := by
  funext i
  rw [Cert.ReferenceIdeal.Read.val_main_v50_apply]
  exact shapeCast_apply x2 _ _ _ (by
    rw [Shape.rowMajor_val_two, Shape.rowMajor_val_one]
    have h1 : (i 1).val < 1 := (i 1).isLt
    show (i 0).val = (i 0).val * 1 + (i 1).val
    omega)

theorem W5_v44 (c : Dev nD) : W5 m ρ c (Proc.devRef .tc main_v44) = Cert.ReferenceIdeal.Read.val_main_v50 (F := Ideal) (m ((c : Thread nD τ).loc main_arg2)) := by
  show StableHlo.after hostOps2 (W4 m ρ c) (Proc.devRef .tc main_v44) = _
  after_results_simp
  rw [W4_arg2]
  exact words_col _

/-- After the third launch the pooled sums are the reference's scatter of the features by graph word. -/
theorem W6_v45_0 (c : Dev nD) : W6 m ρ c (Proc.devRef .tc main_v45_0)
    = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ?_
  refine (pool_sums_value (V5 m ρ) c).trans ?_
  have e43 : V5 m ρ c main_v43 = _ := W5_v43 m ρ c
  have e44 : V5 m ρ c main_v44 = _ := W5_v44 m ρ c
  rw [e43, e44, poolS_eq_scatter]
  rfl

/-- And the pooled counts, entry (g, 0), the reference's scatter of ones at g. -/
theorem W6_v45_1 (c : Dev nD) (j : S256x1.Idx) : W6 m ρ c (Proc.devRef .tc main_v45_1) j
    = Cert.ReferenceIdeal.Read.val_main_v55 (F := Ideal) (m ((c : Thread nD τ).loc main_arg2)) (Cert.ReferenceIdeal.Read.idx_main_v58 j) := by
  refine (congrFun ((W6_arr m ρ c 3).trans (pool_counts_value (V5 m ρ) c)) j).trans ?_
  have e44 : V5 m ρ c main_v44 = _ := W5_v44 m ρ c
  rw [e44, poolC_eq_scatter]
  rfl

theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)

end Cert.KernelIdeal.Val

end
-- ==== Proof.StagesD.lean ====
/- The last stretch: means, the joined [sums | means] rows, the output layer. Its operations are the reference's, line by
   line, over the pooled sums and counts; the one difference is the counts' layout — a [256,1] column in the kernel's
   program, a [256] vector broadcast to a column in the reference — which entry by entry is the same clamped count. -/
import proofs.«428264_j44092134260958_1_alg».proof.Proof.StagesC
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Val

open Cert.KernelIdeal Cert.KernelIdeal.Gen

open Idealize.ShloMosaic.StableHlo

variable (m : (ℓ : Loc nD τ sig) → Buf (Elt Ideal) ℓ) (ρ : Dev nD → PrngReg)

/-- The divisor of the means, max (count, 1) spread along the 32 features: entry (g, e) of the kernel program's column
    form is entry (g, e) of the reference's. -/
theorem divisor_eq (c : Dev nD) :
    broadcastInDim S256x32 ![0, 1] bcast_S256x1_S256x32_0_1
        (maximumf (W6 m ρ c (Proc.devRef .tc main_v45_1))
          (broadcastInDim S256x1 ![] bcast_S_S256x1 (constant (F := Ideal) S_ .f32 0x3F800000#32)))
      = Cert.ReferenceIdeal.Read.val_main_v59 (F := Ideal) (m ((c : Thread nD τ).loc main_arg2)) := by
  funext i
  rw [Cert.ReferenceIdeal.Read.val_main_v59_apply, Cert.ReferenceIdeal.Read.val_main_v58_apply, Cert.ReferenceIdeal.Read.val_main_v57_apply, Cert.ReferenceIdeal.Read.val_main_v56_apply,
    Cert.ReferenceIdeal.Read.val_main_cst_11_apply]
  rw [broadcastInDim_apply _ bcast_S256x1_S256x32_0_1 _ i (Cert.ReferenceIdeal.Read.idx_main_v59 i) (fun a => match a with
    | ⟨0, _⟩ => by show (i 0).val = if (256 : Nat) = 1 then 0 else (i 0).val; rw [if_neg (by decide)]
    | ⟨1, _⟩ => by show 0 = if (1 : Nat) = 1 then 0 else (i 1).val; rw [if_pos rfl])]
  show FloatOps.maximumf (W6 m ρ c (Proc.devRef .tc main_v45_1) (Cert.ReferenceIdeal.Read.idx_main_v59 i))
      (broadcastInDim S256x1 ![] bcast_S_S256x1 (constant (F := Ideal) S_ .f32 0x3F800000#32) (Cert.ReferenceIdeal.Read.idx_main_v59 i)) = _
  rw [W6_v45_1, ValueIdx.broadcastInDim_scalar_apply]
  rfl

set_option maxHeartbeats 4000000 in
set_option maxRecDepth 16384 in
/-- The kernel program's result is the reference's last stage of the launch arguments. -/
theorem W7_v54 (c : Dev nD) : W7 m ρ c (Proc.devRef .tc main_v54)
    = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v54) = _
  after_results
  rw [divisor_eq, W6_v45_0, W6_arg5, W6_arg6]
  rfl

end Cert.KernelIdeal.Val

end
-- ==== Proof.lean ====
/- The certificate of a graph-convolution layer with pooling: x · W1 on the matrix unit, the degree-normalised
   gather / scatter over the edges on the host, tanh of (messages + self-loop term + bias) in a second launch, and the
   per-graph sums and counts by a one-hot product accumulated over fifty node tiles in a third — against the jnp
   reference, which scatters by graph word instead.

   Over the extended reals the two programs compute one function of the arguments. The host operations between and
   after the launches are the reference's own, line by line, so the proof follows the kernel program boundary by
   boundary and shows each buffer a launch or a stretch reads to be the reference's stage of the launch arguments:
   the row blocks of x · W1 tile the whole product; the tanh blocks are the one pointwise function; and the one-hot
   product of a tile adds, to row g, exactly the features of the tile's nodes whose graph word is g — a word outside
   [0, 256) matches no row and is dropped by the reference's scatter as well — so the fifty tiles add up to the
   scatter, sums being free to regroup on the extended reals (0 · x = 0 and 1 · x = x at every x, so no finiteness is
   used). The counts are the same with ones for features; the kernel program keeps them as a column, the reference as
   a vector, and entry by entry max (count, 1) is the same divisor.

   The ideal pass rewrote nothing, so the preservation claim is trivial; the three frames are the generated ones (the
   reference's is its run with the result dropped). -/
import proofs.«428264_j44092134260958_1_alg».proof.Defs
import proofs.«428264_j44092134260958_1_alg».proof.Proof.Gen.Kernel
import proofs.«428264_j44092134260958_1_alg».proof.Proof.Gen.Kernel.Skeleton
import proofs.«428264_j44092134260958_1_alg».proof.Proof.Gen.Kernel.Launch
import proofs.«428264_j44092134260958_1_alg».proof.Proof.Gen.Kernel.Points
import proofs.«428264_j44092134260958_1_alg».proof.Proof.Gen.Kernel.Frame
import proofs.«428264_j44092134260958_1_alg».proof.Proof.Gen.KernelIdeal
import proofs.«428264_j44092134260958_1_alg».proof.Proof.Gen.KernelIdeal.Skeleton
import proofs.«428264_j44092134260958_1_alg».proof.Proof.Gen.KernelIdeal.Launch
import proofs.«428264_j44092134260958_1_alg».proof.Proof.Gen.KernelIdeal.Points
import proofs.«428264_j44092134260958_1_alg».proof.Proof.Gen.KernelIdeal.Frame
import proofs.«428264_j44092134260958_1_alg».proof.Proof.Gen.ReferenceIdeal
import proofs.«428264_j44092134260958_1_alg».proof.Proof.Gen.Pre_finite_inputs
import proofs.«428264_j44092134260958_1_alg».proof.Proof.Gen.ReferenceIdeal.Run
import proofs.«428264_j44092134260958_1_alg».proof.Proof.Gen.ReferenceIdeal.Read
import proofs.«428264_j44092134260958_1_alg».proof.Proof.KRun
import proofs.«428264_j44092134260958_1_alg».proof.Proof.StagesD
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger is empty: the idealized kernel is the kernel's own text read at the ideal instance. -/
theorem preserves : Cert.preserves_Kernel_KernelIdeal := trivial

/-- Both programs end with the result at the reference's last stage of the arguments: the kernel program by following
    its boundaries, the reference by its run; the arguments agree. -/
theorem algebraic : Cert.algebraic_KernelIdeal_ReferenceIdeal := by
  intro m ρ m' ρ' _ hagree
  refine ⟨fun c => Cert.KernelIdeal.Gen.W7 m ρ c (Proc.devRef .tc Cert.KernelIdeal.main_v54),
    Cert.KernelIdeal.GenP.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2.1, (hagree c).2.2.1, (hagree c).2.2.2.1,
    (hagree c).2.2.2.2.1, (hagree c).2.2.2.2.2.1, (hagree c).2.2.2.2.2.2]
  exact (Cert.KernelIdeal.Val.W7_v54 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
